-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x64 : Shape := ⟨2, ![262144, 64]⟩
abbrev S256x64 : Shape := ⟨2, ![256, 64]⟩
abbrev S256 : Shape := ⟨1, ![256]⟩
abbrev S_ : Shape := ⟨0, ![]⟩

class Facts : Prop where
  bcast_S_S262144x64 : S_.BroadcastsInDim S262144x64 (![] : Fin 0 → Fin S262144x64.rank)
  reducesTo_S262144x64_S_d0_1 : S262144x64.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S262144x64 .f32) (main_arg1 : FVec F S256x64 .f32) (main_arg2 : FVec F S256 .f32) (main_arg3 : FVec F S256 .f32) : IVec S_ 1 :=
  let main_v0 : FVec F S262144x64 .f32 := Host.absf main_arg0
  let main_cst : FVec F S_ .f32 := constant S_ .f32 0x7F800000#32
  let main_v1 : FVec F S262144x64 .f32 := broadcastInDim S262144x64 ![] bcast_S_S262144x64 main_cst
  let main_v2 : IVec S262144x64 1 := cmpf .olt main_v0 main_v1
  let main_c : IVec S_ 1 := constantI S_ 1 1#1
  let main_v3 : IVec S_ 1 := (fun x v => Host.reduce IntOp.andi x v reducesTo_S262144x64_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S262144x64 : Shape := ⟨2, ![262144, 64]⟩
abbrev S256x64 : Shape := ⟨2, ![256, 64]⟩
abbrev S256 : Shape := ⟨1, ![256]⟩
abbrev S256x1 : Shape := ⟨2, ![256, 1]⟩
abbrev S256x262144 : Shape := ⟨2, ![256, 262144]⟩
abbrev S8192x64 : Shape := ⟨2, ![8192, 64]⟩
abbrev S256x8192 : Shape := ⟨2, ![256, 8192]⟩
abbrev S8192 : Shape := ⟨1, ![8192]⟩
abbrev S1x8192 : Shape := ⟨2, ![1, 8192]⟩
abbrev S64x8192 : Shape := ⟨2, ![64, 8192]⟩

abbrev nBuf : Space → Nat
  | .hbm => 7
  | .vmem => 7
  | .smem => 0
  | _ => 0

abbrev bufTy : (tb : Table) → Fin (tcTables nBuf tb) → BufTy
  | .hbm, ⟨0, _⟩ => ⟨S262144x64, .f32⟩
  | .hbm, ⟨1, _⟩ => ⟨S256x64, .f32⟩
  | .hbm, ⟨2, _⟩ => ⟨S256, .f32⟩
  | .hbm, ⟨3, _⟩ => ⟨S256, .f32⟩
  | .hbm, ⟨4, _⟩ => ⟨S256x1, .f32⟩
  | .hbm, ⟨5, _⟩ => ⟨S256x1, .f32⟩
  | .hbm, ⟨6, _⟩ => ⟨S256x262144, .f32⟩
  | .local _ .vmem, ⟨0, _⟩ => ⟨S256x64, .f32⟩
  | .local _ .vmem, ⟨1, _⟩ => ⟨S256x1, .f32⟩
  | .local _ .vmem, ⟨2, _⟩ => ⟨S256x1, .f32⟩
  | .local _ .vmem, ⟨3, _⟩ => ⟨S8192x64, .f32⟩
  | .local _ .vmem, ⟨4, _⟩ => ⟨S8192x64, .f32⟩
  | .local _ .vmem, ⟨5, _⟩ => ⟨S256x8192, .f32⟩
  | .local _ .vmem, ⟨6, _⟩ => ⟨S256x8192, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S256_S256x1 : S256.ShapeCasts S256x1
  inb_S256x64_S256x64_0_0 : ∀ a, (![0, 0] : Fin 2 → Nat) a + S256x64.size a ≤ S256x64.size a
  h_S256x64 : 0 < S256x64.numel
  inb_S8192x64_S8192x64_0_0 : ∀ a, (![0, 0] : Fin 2 → Nat) a + S8192x64.size a ≤ S8192x64.size a
  h_S8192x64 : 0 < S8192x64.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  reduces_S256x64_S256 : S256x64.Reduces [1] S256
  reduces_S8192x64_S8192 : S8192x64.Reduces [1] S8192
  shapeCasts_S8192_S1x8192 : S8192.ShapeCasts S1x8192
  bitsLt_bf16_f32 : FTy.bits .bf16 < FTy.bits .f32
  transposes_S8192x64_p1_0_S64x8192 : S8192x64.Transposes [1, 0] S64x8192
  broadcasts_S256x1_S256x8192 : S256x1.Broadcasts S256x8192
  broadcasts_S1x8192_S256x8192 : S1x8192.Broadcasts S256x8192
  inb_S256x8192_S256x8192_0_0 : ∀ a, (![0, 0] : Fin 2 → Nat) a + S256x8192.size a ≤ S256x8192.size a
  h_S256x8192 : 0 < S256x8192.numel
  dot_S256x64_S64x8192_S256x8192_1_0_0_1_n_n_wf : DotDims.WF S256x64 S64x8192 S256x8192 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S256x64.size a
  hwx0_0 : ∀ i : grid0.Coords, EltTy.bits .f32 = 32 ∨ (Rect.block (s := S256x64) S256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S256x1.size a
  hwx0_1 : ∀ i : grid0.Coords, EltTy.bits .f32 = 32 ∨ (Rect.block (s := S256x1) S256x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x64.size a ≤ S262144x64.size a
  hwx0_3 : ∀ i : grid0.Coords, EltTy.bits .f32 = 32 ∨ (Rect.block (s := S262144x64) S8192x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x8192.size a ≤ S256x262144.size a
  hwx0_4 : ∀ i : grid0.Coords, EltTy.bits .f32 = 32 ∨ (Rect.block (s := S256x262144) S256x8192.size (cc0_transform_4 i) (hinb0_4 i)).WholeWords (EltTy.packing .f32)

variable [Facts₀]

def dot_S256x64_S64x8192_S256x8192_1_0_0_1_n_n : DotDims S256x64 S64x8192 S256x8192 where
  lhsContracting := [1]
  rhsContracting := [0]
  lhsNonContracting := [0]
  rhsNonContracting := [1]
  lhsBatch := []
  rhsBatch := []
  wf := dot_S256x64_S64x8192_S256x8192_1_0_0_1_n_n_wf

abbrev win0_0 : Pipeline.Window sig grid0 :=
  Pipeline.Window.ofSpec (Memref.whole main_arg1) S256x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S8192x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x8192.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S262144x64 : Shape := ⟨2, ![262144, 64]⟩
abbrev S256x64 : Shape := ⟨2, ![256, 64]⟩
abbrev S256 : Shape := ⟨1, ![256]⟩
abbrev S_ : Shape := ⟨0, ![]⟩
abbrev S262144 : Shape := ⟨1, ![262144]⟩
abbrev S256x262144 : Shape := ⟨2, ![256, 262144]⟩
abbrev S256x1 : Shape := ⟨2, ![256, 1]⟩
abbrev S1x262144 : Shape := ⟨2, ![1, 262144]⟩

abbrev nBuf : Space → Nat
  | .hbm => 35
  | .vmem => 0
  | .smem => 0
  | _ => 0

abbrev bufTy : (tb : Table) → Fin (tcTables nBuf tb) → BufTy
  | .hbm, ⟨0, _⟩ => ⟨S262144x64, .f32⟩
  | .hbm, ⟨1, _⟩ => ⟨S256x64, .f32⟩
  | .hbm, ⟨2, _⟩ => ⟨S256, .f32⟩
  | .hbm, ⟨3, _⟩ => ⟨S256, .f32⟩
  | .hbm, ⟨4, _⟩ => ⟨S262144x64, .f32⟩
  | .hbm, ⟨5, _⟩ => ⟨S_, .f32⟩
  | .hbm, ⟨6, _⟩ => ⟨S262144, .f32⟩
  | .hbm, ⟨7, _⟩ => ⟨S256x64, .f32⟩
  | .hbm, ⟨8, _⟩ => ⟨S_, .f32⟩
  | .hbm, ⟨9, _⟩ => ⟨S256, .f32⟩
  | .hbm, ⟨10, _⟩ => ⟨S256x262144, .f32⟩
  | .hbm, ⟨11, _⟩ => ⟨S256x1, .f32⟩
  | .hbm, ⟨12, _⟩ => ⟨S1x262144, .f32⟩
  | .hbm, ⟨13, _⟩ => ⟨S256x262144, .f32⟩
  | .hbm, ⟨14, _⟩ => ⟨S256x262144, .f32⟩
  | .hbm, ⟨15, _⟩ => ⟨S256x262144, .f32⟩
  | .hbm, ⟨16, _⟩ => ⟨S_, .f32⟩
  | .hbm, ⟨17, _⟩ => ⟨S256x262144, .f32⟩
  | .hbm, ⟨18, _⟩ => ⟨S256x262144, .f32⟩
  | .hbm, ⟨19, _⟩ => ⟨S256x262144, .f32⟩
  | .hbm, ⟨20, _⟩ => ⟨S256, .f32⟩
  | .hbm, ⟨21, _⟩ => ⟨S256x1, .f32⟩
  | .hbm, ⟨22, _⟩ => ⟨S256x1, .f32⟩
  | .hbm, ⟨23, _⟩ => ⟨S256x1, .f32⟩
  | .hbm, ⟨24, _⟩ => ⟨S_, .f32⟩
  | .hbm, ⟨25, _⟩ => ⟨S256x1, .f32⟩
  | .hbm, ⟨26, _⟩ => ⟨S256x1, .f32⟩
  | .hbm, ⟨27, _⟩ => ⟨S256x1, .f32⟩
  | .hbm, ⟨28, _⟩ => ⟨S256x262144, .f32⟩
  | .hbm, ⟨29, _⟩ => ⟨S256x262144, .f32⟩
  | .hbm, ⟨30, _⟩ => ⟨S_, .f32⟩
  | .hbm, ⟨31, _⟩ => ⟨S256x262144, .f32⟩
  | .hbm, ⟨32, _⟩ => ⟨S256x262144, .f32⟩
  | .hbm, ⟨33, _⟩ => ⟨S256x262144, .f32⟩
  | .hbm, ⟨34, _⟩ => ⟨S256x262144, .f32⟩
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  reducesTo_S262144x64_S262144_d1 : S262144x64.ReducesTo [1] S262144
  h_S_ : 0 < S_.numel
  reducesTo_S256x64_S256_d1 : S256x64.ReducesTo [1] S256
  bcast_S256_S256x1_0 : S256.BroadcastsInDim S256x1 (![0] : Fin 1 → Fin S256x1.rank)
  bcast_S262144_S1x262144_1 : S262144.BroadcastsInDim S1x262144 (![1] : Fin 1 → Fin S1x262144.rank)
  bcast_S256x1_S256x262144_0_1 : S256x1.BroadcastsInDim S256x262144 (![0, 1] : Fin 2 → Fin S256x262144.rank)
  bcast_S1x262144_S256x262144_0_1 : S1x262144.BroadcastsInDim S256x262144 (![0, 1] : Fin 2 → Fin S256x262144.rank)
  bcast_S_S256x262144 : S_.BroadcastsInDim S256x262144 (![] : Fin 0 → Fin S256x262144.rank)
  bcast_S_S256x1 : S_.BroadcastsInDim S256x1 (![] : Fin 0 → Fin S256x1.rank)
  dot_S256x64_S262144x64_S256x262144_1_1_0_0_n_n_wf : DotDims.WF S256x64 S262144x64 S256x262144 [1] [1] [0] [0] [] []

variable [Facts₀]

def dot_S256x64_S262144x64_S256x262144_1_1_0_0_n_n : DotDims S256x64 S262144x64 S256x262144 where
  lhsContracting := [1]
  rhsContracting := [1]
  lhsNonContracting := [0]
  rhsNonContracting := [0]
  lhsBatch := []
  rhsBatch := []
  wf := dot_S256x64_S262144x64_S256x262144_1_1_0_0_n_n_wf

class Facts : Prop extends Facts₀ where

variable [Facts]
-- ==== Proof.Spec.lean ====
/-
  The value at one output entry, and the whole result as a function of the four inputs.

  Entry (k, n) of the result is the log-weight of point n under component k of a mixture of isotropic Gaussians in
  64 dimensions: with `a` the k-th mean, `x` the n-th point, `l` the k-th log-variance and `w` the k-th log-weight,

      (w - 32 * l) - 1/2 * ((|a|^2 + |x|^2 - 2 * <a, x>) / exp l),

  the squared distance expanded into the two squared norms and the inner product, every sum over the 64 coordinates.
  The three constants 32, 1/2 and 2 are kept as the float words both programs print; neither side evaluates them.
  Nothing here cancels or distributes, so the formula is read on the extended reals as it stands, with no finiteness
  assumption.
-/
import Idealize.ShloMosaic.PureOps.Ideal
import Idealize.ShloMosaic.Lib.ValueIdx

noncomputable section

namespace Cert.Gmm

open Idealize.ShloMosaic Idealize.ShloMosaic.ValueIdx

/-- The entry's value from a mean `a`, a point `x` (both as their 64 coordinates), the component's log-variance `l` and
    log-weight `w`. -/
def logDensity (a x : Fin 64 → EReal) (l w : EReal) : EReal :=
  (w - Ideal.ofBits .f32 0x42000000#32 * l)
    - Ideal.ofBits .f32 0x3F000000#32
        * Ideal.div (((∑ d : Fin 64, a d * a d) + (∑ d : Fin 64, x d * x d))
            - Ideal.ofBits .f32 0x40000000#32 * (∑ d : Fin 64, a d * x d)) (Ideal.exp l)

/-- The value depends on the mean, the point and the two scalars only. -/
theorem logDensity_congr {a a' x x' : Fin 64 → EReal} {l l' w w' : EReal} (ha : a = a') (hx : x = x') (hl : l = l')
    (hw : w = w') : logDensity a x l w = logDensity a' x' l' w' := by
  rw [ha, hx, hl, hw]

/-- The whole result: entry (k, n) from row k of the means, row n of the points, and entries k of the log-variances and
    of the log-weights. -/
def result (X : (⟨2, ![262144, 64]⟩ : Shape).Idx → EReal) (mu : (⟨2, ![256, 64]⟩ : Shape).Idx → EReal)
    (lv w : (⟨1, ![256]⟩ : Shape).Idx → EReal) : (⟨2, ![256, 262144]⟩ : Shape).Idx → EReal := fun i =>
  logDensity (fun d => mu (ix2 (i 0 : Fin 256) d)) (fun d => X (ix2 (i 1 : Fin 262144) d))
    (lv (ix1 (i 0 : Fin 256))) (w (ix1 (i 0 : Fin 256)))

end Cert.Gmm

end
-- ==== Proof.LibKeepdims.lean ====
/-
  Column forms of the layout operations a `keepdims` reduction leaves behind, read at an index: a vector turned into a
  one-column matrix, and a one-column matrix broadcast along its rows. General in the extents and in the element type.
-/
import Idealize.ShloMosaic.Lib.ValueIdx
import Idealize.ShloMosaic.Lib.Pipeline.Value

namespace Cert.Lib.Keepdims

open Idealize.ShloMosaic Idealize.ShloMosaic.ValueIdx

variable {α : Type}

/-- An `[a]` array cast to `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.Payload.lean ====
/-
  The kernel body's stored value at one entry of the output block.

  The body loads the whole block of means (256 x 64), the point block (8192 x 64) and the two 256 x 1 columns of
  log-variances and log-weights, and stores one 256 x 8192 block. Read at entry (p, q) of that block, every operation of
  the body is one of: a pointwise operation; a column or a row laid across the block (a keepdims lane sum broadcast
  back); a lane sum over the 64 coordinates; or the matrix product of the means with the transposed points into a zero
  accumulator, which at entry (p, q) is the inner product of mean p with point q. Rounding the two factors to bf16 is
  the identity on extended reals. Put together, entry (p, q) is `logDensity` of mean row p, point row q and the two
  scalars of row p.
-/
import proofs.«127888_j55448027791416_1_alg».proof.Proof.Gen.KernelIdeal.Skeleton
import proofs.«127888_j55448027791416_1_alg».proof.Proof.Spec
import proofs.«127888_j55448027791416_1_alg».proof.Proof.LibKeepdims
import Idealize.ShloMosaic.Lib.ValueLayout
import Idealize.ShloMosaic.Lib.Pipeline.Value
import Idealize.ShloMosaic.PureOps.Ideal.Laws

noncomputable section

namespace Cert.Gmm

open Idealize.ShloMosaic Idealize.ShloMosaic.ValueIdx Cert.KernelIdeal Cert.KernelIdeal.Gen Cert.Lib.Keepdims

/-! ## Lane sums -/

/-- The lane sum of a 256 x 64 vector at row `p` is the sum of that row's 64 entries (the zero accumulator is dropped). -/
theorem laneSum_mean (src : FVec Ideal S256x64 .f32) (hacc : (0x00000000#32 : BitVec 32) = 0x00000000#32) (p : Fin 256) :
    multiReduction .add [1] S256 src 0x00000000#32 reduces_S256x64_S256 (.inl rfl) hacc (ix1 p)
      = ∑ d : Fin 64, src (ix2 p d) := by
  refine (Ideal.multiReduction_add_single src 0x00000000#32 reduces_S256x64_S256 (.inl rfl) hacc (ix1 p)).trans ?_
  refine Finset.sum_congr rfl fun d _ => congrArg src (funext fun a => Fin.ext ?_)
  match a with
  | ⟨0, _⟩ => rfl
  | ⟨1, _⟩ => rfl

/-- The same for an 8192 x 64 vector at row `q`. -/
theorem laneSum_point (src : FVec Ideal S8192x64 .f32) (hacc : (0x00000000#32 : BitVec 32) = 0x00000000#32) (q : Fin 8192) :
    multiReduction .add [1] S8192 src 0x00000000#32 reduces_S8192x64_S8192 (.inl rfl) hacc (ix1 q)
      = ∑ d : Fin 64, src (ix2 q d) := by
  refine (Ideal.multiReduction_add_single src 0x00000000#32 reduces_S8192x64_S8192 (.inl rfl) hacc (ix1 q)).trans ?_
  refine Finset.sum_congr rfl fun d _ => congrArg src (funext fun a => Fin.ext ?_)
  match a with
  | ⟨0, _⟩ => rfl
  | ⟨1, _⟩ => rfl

/-! ## The two squared norms, laid across the block -/

/-- The means' squared norms, summed along the lanes, kept as a column and laid across the block: at (p, q) the squared
    norm of mean `p`. -/
theorem sqMean_at (v0 : FVec Ideal S256x64 .f32) (p : Fin 256) (q : Fin 8192) :
    broadcastTo S256x8192
        (shapeCast S256x1 (multiReduction .add [1] S256 (mulf v0 v0) 0x00000000#32 reduces_S256x64_S256 (.inl rfl) rfl)
          shapeCasts_S256_S256x1) broadcasts_S256x1_S256x8192 (ix2 p q)
      = ∑ d : Fin 64, v0 (ix2 p d) * v0 (ix2 p d) :=
  (broadcastTo_a1_ab_apply _ broadcasts_S256x1_S256x8192 p q).trans
    ((shapeCast_a_a1_apply _ shapeCasts_S256_S256x1 p (0 : Fin 1)).trans (laneSum_mean (mulf v0 v0) rfl p))

/-- The points' squared norms, summed along the lanes, turned into a row and laid down the block: at (p, q) the squared
    norm of point `q`. -/
theorem sqPoint_at (v1 : FVec Ideal S8192x64 .f32) (p : Fin 256) (q : Fin 8192) :
    broadcastTo S256x8192
        (shapeCast S1x8192 (multiReduction .add [1] S8192 (mulf v1 v1) 0x00000000#32 reduces_S8192x64_S8192 (.inl rfl) rfl)
          shapeCasts_S8192_S1x8192) broadcasts_S1x8192_S256x8192 (ix2 p q)
      = ∑ d : Fin 64, v1 (ix2 q d) * v1 (ix2 q d) :=
  (broadcastTo_1b_ab_apply _ broadcasts_S1x8192_S256x8192 p q).trans
    ((shapeCast_a_1a_apply _ shapeCasts_S8192_S1x8192 (0 : Fin 1) q).trans (laneSum_point (mulf v1 v1) rfl q))

/-! ## The matrix product -/

/-- Left operand, axis 0 (free): the output's row. -/
theorem lhs_mm_0 (i : S256x8192.Idx) (k : dot_S256x64_S64x8192_S256x8192_1_0_0_1_n_n.contr.Idx) :
    (dot_S256x64_S64x8192_S256x8192_1_0_0_1_n_n.lhsIdx i k 0).val = (i 0).val := by
  unfold DotDims.lhsIdx
  rw [dif_neg (show ¬(0 : Fin S256x64.rank) ∈ dot_S256x64_S64x8192_S256x8192_1_0_0_1_n_n.lhsBatch by decide), dif_pos (show (0 : Fin S256x64.rank) ∈ dot_S256x64_S64x8192_S256x8192_1_0_0_1_n_n.lhsNonContracting by decide)]
  rfl
/-- Left operand, axis 1 (contracted): the contraction coordinate. -/
theorem lhs_mm_1 (i : S256x8192.Idx) (k : dot_S256x64_S64x8192_S256x8192_1_0_0_1_n_n.contr.Idx) :
    (dot_S256x64_S64x8192_S256x8192_1_0_0_1_n_n.lhsIdx i k 1).val = (k ⟨0, by decide⟩).val :=
  dot_S256x64_S64x8192_S256x8192_1_0_0_1_n_n.lhsIdx_val_of_single rfl i k
/-- Right operand, axis 0 (contracted): the contraction coordinate. -/
theorem rhs_mm_0 (i : S256x8192.Idx) (k : dot_S256x64_S64x8192_S256x8192_1_0_0_1_n_n.contr.Idx) :
    (dot_S256x64_S64x8192_S256x8192_1_0_0_1_n_n.rhsIdx i k 0).val = (k ⟨0, by decide⟩).val :=
  dot_S256x64_S64x8192_S256x8192_1_0_0_1_n_n.rhsIdx_val_of_single rfl i k
/-- Right operand, axis 1 (free): the output's column. -/
theorem rhs_mm_1 (i : S256x8192.Idx) (k : dot_S256x64_S64x8192_S256x8192_1_0_0_1_n_n.contr.Idx) :
    (dot_S256x64_S64x8192_S256x8192_1_0_0_1_n_n.rhsIdx i k 1).val = (i 1).val := by
  unfold DotDims.rhsIdx
  rw [dif_neg (show ¬(1 : Fin S64x8192.rank) ∈ dot_S256x64_S64x8192_S256x8192_1_0_0_1_n_n.rhsBatch by decide), dif_pos (show (1 : Fin S64x8192.rank) ∈ dot_S256x64_S64x8192_S256x8192_1_0_0_1_n_n.rhsNonContracting by decide)]
  rfl

/-- The product of the means with the transposed points into a zero accumulator: at (p, q) the inner product of mean
    `p` with point `q`. -/
theorem inner_at (v0 : FVec Ideal S256x64 .f32) (v1 : FVec Ideal S8192x64 .f32) (p : Fin 256) (q : Fin 8192) :
    matmul dot_S256x64_S64x8192_S256x8192_1_0_0_1_n_n none (truncf .bf16 v0 bitsLt_bf16_f32)
        (transpose S64x8192 [1, 0] (truncf .bf16 v1 bitsLt_bf16_f32) transposes_S8192x64_p1_0_S64x8192)
        (constant S256x8192 .f32 0x00000000#32) (ix2 p q)
      = ∑ d : Fin 64, v0 (ix2 p d) * v1 (ix2 q d) := by
  refine (Ideal.matmul_constant_zero_apply dot_S256x64_S64x8192_S256x8192_1_0_0_1_n_n none _ _ (ix2 p q)).trans ?_
  rw [← Equiv.sum_comp (ValueIdx.contrEquiv1 dot_S256x64_S64x8192_S256x8192_1_0_0_1_n_n 64 rfl rfl).symm]
  refine Finset.sum_congr rfl fun d _ => ?_
  have hd := ValueIdx.contrEquiv1_symm_val dot_S256x64_S64x8192_S256x8192_1_0_0_1_n_n 64 rfl rfl d
  have el : dot_S256x64_S64x8192_S256x8192_1_0_0_1_n_n.lhsIdx (ix2 p q) ((ValueIdx.contrEquiv1 dot_S256x64_S64x8192_S256x8192_1_0_0_1_n_n 64 rfl rfl).symm d) = ix2 p d := funext fun a => Fin.ext (by
    match a with
    | ⟨0, _⟩ => exact lhs_mm_0 _ _
    | ⟨1, _⟩ => exact (lhs_mm_1 _ _).trans hd)
  have er : dot_S256x64_S64x8192_S256x8192_1_0_0_1_n_n.rhsIdx (ix2 p q) ((ValueIdx.contrEquiv1 dot_S256x64_S64x8192_S256x8192_1_0_0_1_n_n 64 rfl rfl).symm d) = ix2 d q := funext fun a => Fin.ext (by
    match a with
    | ⟨0, _⟩ => exact (rhs_mm_0 _ _).trans hd
    | ⟨1, _⟩ => exact rhs_mm_1 _ _)
  rw [el, er]
  exact congrArg (v0 (ix2 p d) * ·) (transpose_ix2_apply (truncf .bf16 v1 bitsLt_bf16_f32) transposes_S8192x64_p1_0_S64x8192 d q)

/-! ## The payload -/

/-- Entry (p, q) of the stored block, from the four loaded blocks. -/
theorem payload_at (v0 : Vec Ideal S256x64 .f32) (v1 : Vec Ideal S8192x64 .f32) (v2 v4 : Vec Ideal S256x1 .f32)
    (p : Fin 256) (q : Fin 8192) :
    k0_pay1 (F := Ideal) v0 v1 v2 v4 (ix2 p q)
      = logDensity (fun d => v0 (ix2 p d)) (fun d => v1 (ix2 q d)) (v2 (ix2 p (0 : Fin 1))) (v4 (ix2 p (0 : Fin 1))) := by
  unfold k0_pay1 logDensity
  dsimp only
  rw [shapeCast_self v2 shapeCasts_S256x1_S256x1, shapeCast_self v4 shapeCasts_S256x1_S256x1]
  simp only [subf_apply, mulf_apply, divf_apply, addf_apply, broadcast_apply]
  rw [sqMean_at v0 p q, sqPoint_at v1 p q, inner_at v0 v1 p q]
  rw [broadcastTo_a1_ab_apply _ broadcasts_S256x1_S256x8192 p q, broadcastTo_a1_ab_apply _ broadcasts_S256x1_S256x8192 p q]
  rfl

end Cert.Gmm

end
-- ==== Proof.KernelValue.lean ====
/-
  The kernel's output array after the run is `result` of the four arguments.

  The grid has 32 points. At point `t` the body sees the whole 256 x 64 array of means, the whole 256 x 1 columns of
  log-variances and log-weights (the two arguments reshaped by the host before the call), and rows 8192 t .. 8192 t + 8191
  of the points; it writes columns 8192 t .. 8192 t + 8191 of the 256 x 262144 output. So entry (p, q) of the block written
  at `t` is `logDensity` of mean p, point 8192 t + q and the scalars of row p — entry (p, 8192 t + q) of one function of
  the whole arrays —, and the 32 column blocks tile the output: column n lies in the block of point n / 8192.
-/
import proofs.«127888_j55448027791416_1_alg».proof.Proof.Gen.KernelIdeal.Value
import proofs.«127888_j55448027791416_1_alg».proof.Proof.Payload
import Idealize.ShloMosaic.Lib.StableHlo.Run

set_option maxRecDepth 16384

noncomputable section

namespace Cert.Gmm

open Cert.KernelIdeal Cert.KernelIdeal.Gen Idealize.ShloMosaic Idealize.ShloMosaic.TcCoe Idealize.ShloMosaic.ValueIdx
open Idealize.SL.Sem Cert.Lib.Keepdims
open Idealize.ShloMosaic.Pipeline (Dat)

variable (m : (ℓ : Loc nD τ sig) → Buf (Elt Ideal) ℓ) (ρ : Dev nD → PrngReg)

/-! ## The result over the arrays the region stages -/

/-- `result` with the log-variances and log-weights given as 256 x 1 columns, as the region's windows hold them. -/
def resultCols (X : S262144x64.Idx → EReal) (mu : S256x64.Idx → EReal) (lv w : S256x1.Idx → EReal) :
    S256x262144.Idx → EReal := fun i =>
  logDensity (fun d => mu (ix2 (i 0 : Fin 256) d)) (fun d => X (ix2 (i 1 : Fin 262144) d))
    (lv (ix2 (i 0 : Fin 256) (0 : Fin 1))) (w (ix2 (i 0 : Fin 256) (0 : Fin 1)))

/-- Over the reshaped vectors it is `result` of the vectors: entry (k, 0) of a vector cast to a column is entry k. -/
theorem resultCols_reshape (X : S262144x64.Idx → EReal) (mu : S256x64.Idx → EReal) (lv w : S256.Idx → EReal) :
    resultCols X mu (shapeCast S256x1 lv shapeCasts_S256_S256x1) (shapeCast S256x1 w shapeCasts_S256_S256x1)
      = result X mu lv w := by
  funext i
  unfold resultCols result
  rw [shapeCast_a_a1_apply lv shapeCasts_S256_S256x1 (i 0 : Fin 256) (0 : Fin 1),
    shapeCast_a_a1_apply w shapeCasts_S256_S256x1 (i 0 : Fin 256) (0 : Fin 1)]

/-- The region finds the log-variances as the third argument cast to a column. -/
theorem V_logvar (c : Dev nD) :
    (V m c main_v0 : S256x1.Idx → EReal) = shapeCast S256x1 (m ((c : Thread nD τ).loc main_arg2)) shapeCasts_S256_S256x1 := by
  dsimp only [V, hostOps0]; after_results; rfl

/-- The region finds the log-weights as the fourth argument cast to a column. -/
theorem V_logweight (c : Dev nD) :
    (V m c main_v1 : S256x1.Idx → EReal) = shapeCast S256x1 (m ((c : Thread nD τ).loc main_arg3)) shapeCasts_S256_S256x1 := by
  dsimp only [V, hostOps0]; after_results; rfl

/-! ## What each point writes back -/

theorem origin_eq : (![0, 0] : Fin 2 → Nat) = fun _ => 0 := funext fun a => by fin_cases a <;> rfl

/-- The index maps over the 32 points: the means and the two columns are always at block (0, 0); the points' row block
    is the output's column block; the output's row block is 0 and its column block is below 32. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = win0_4.index t (1 : Fin 2) ∧ win0_3.index t (1 : Fin 2) = 0
    ∧ win0_4.index t (0 : Fin 2) = 0 ∧ win0_4.index t (1 : Fin 2) ≤ 31 :=
  (by decide +kernel : ∀ t : Fin grid0.N, _)

/-- Every column block is some point's. -/
theorem idx_onto : ∀ b : Fin 32, ∃ t : Fin cfg0.N, win0_4.index t = ![0, b.val] :=
  (by decide +kernel : ∀ b : Fin 32, ∃ t : Fin grid0.N, win0_4.index t = ![0, b.val])

/-- Point `t` writes back block `t` of `resultCols` of the arrays as the region finds them. -/
theorem flushed_eq (c : Dev nD) (t : Fin cfg0.N) :
    (dats m 0 c).flushed 4 t = ((cfg0.win 4).blk t).view.read (Elt Ideal)
      (resultCols (V m c main_arg0) (V m c main_arg1) (V m c main_v0) (V m c main_v1)) := by
  rw [Cert.KernelIdeal.Value.flushed4]
  unfold out0_4
  rw [View.canon_unit_zero origin_eq]
  simp only [View.ld_unit_zero (S := S256x64) origin_eq, View.ld_unit_zero (S := S8192x64) origin_eq,
    View.ld_unit_zero (S := S256x1) origin_eq]
  obtain ⟨a0, a1, b0, b1, c0, c1, d0, d1, e0, e1⟩ := idx_facts t
  funext j
  obtain ⟨p, q, rfl⟩ : ∃ (p : Fin 256) (q : Fin 8192), j = ix2 p q := ⟨j 0, j 1, eq_ix2 j⟩
  refine (payload_at (iblk m c 0 t) (iblk m c 3 t) (iblk m c 1 t) (iblk m c 2 t) p q).trans ?_
  show _ = resultCols (V m c main_arg0) (V m c main_arg1) (V m c main_v0) (V m c main_v1)
    (((cfg0.win 4).blk t).view.emb (ix2 p q))
  unfold resultCols
  refine logDensity_congr ?_ ?_ ?_ ?_
  · funext d
    show V m c main_arg1 (((cfg0.win 0).blk t).view.emb (ix2 p d)) = _
    refine congrArg (V m c main_arg1) (funext fun a => Fin.ext ?_)
    match a with
    | ⟨0, _⟩ => show win0_0.index t (0 : Fin 2) * 256 + 1 * p.val = win0_4.index t (0 : Fin 2) * 256 + 1 * p.val; omega
    | ⟨1, _⟩ => show win0_0.index t (1 : Fin 2) * 64 + 1 * d.val = d.val; omega
  · funext d
    show V m c main_arg0 (((cfg0.win 3).blk t).view.emb (ix2 q d)) = _
    refine congrArg (V m c main_arg0) (funext fun a => Fin.ext ?_)
    match a with
    | ⟨0, _⟩ => show win0_3.index t (0 : Fin 2) * 8192 + 1 * q.val = win0_4.index t (1 : Fin 2) * 8192 + 1 * q.val; omega
    | ⟨1, _⟩ => show win0_3.index t (1 : Fin 2) * 64 + 1 * d.val = d.val; omega
  · show V m c main_v0 (((cfg0.win 1).blk t).view.emb (ix2 p (0 : Fin 1))) = _
    refine congrArg (V m c main_v0) (funext fun a => Fin.ext ?_)
    match a with
    | ⟨0, _⟩ => show win0_1.index t (0 : Fin 2) * 256 + 1 * p.val = win0_4.index t (0 : Fin 2) * 256 + 1 * p.val; omega
    | ⟨1, _⟩ => show win0_1.index t (1 : Fin 2) * 1 + 1 * 0 = 0; omega
  · show V m c main_v1 (((cfg0.win 2).blk t).view.emb (ix2 p (0 : Fin 1))) = _
    refine congrArg (V m c main_v1) (funext fun a => Fin.ext ?_)
    match a with
    | ⟨0, _⟩ => show win0_2.index t (0 : Fin 2) * 256 + 1 * p.val = win0_4.index t (0 : Fin 2) * 256 + 1 * p.val; omega
    | ⟨1, _⟩ => show win0_2.index t (1 : Fin 2) * 1 + 1 * 0 = 0; omega

/-! ## The blocks tile the output -/

/-- An index is in point `t`'s block iff each coordinate is in the block's range on its axis. -/
theorem mem_blk (t : Fin cfg0.N) (i : S256x262144.Idx) :
    i ∈ ((cfg0.win 4).blk t).view.set ↔ ∀ a : Fin 2, win0_4.index t a * S256x8192.size a ≤ (i a).val
      ∧ (i a).val < win0_4.index t a * S256x8192.size a + S256x8192.size a := by
  show i ∈ ((View.whole main_v2).slice (win0_4.rect t)).set ↔ _
  rw [View.set_slice_whole, Rect.mem_set_unit]
  exact Iff.rfl

/-- Every index of the output is in the block of the point whose column block is `i 1 / 8192`. -/
theorem cover (i : S256x262144.Idx) :
    ∃ t : Fin cfg0.N, (cfg0.win 4).flush t = true ∧ i ∈ ((cfg0.win 4).blk t).view.set := by
  have hi0 : (i 0).val < 256 := (i 0).isLt
  have hi1 : (i 1).val < 262144 := (i 1).isLt
  obtain ⟨t, ht⟩ := idx_onto ⟨(i 1).val / 8192, by omega⟩
  have q0 : win0_4.index t (0 : Fin 2) = 0 := congrFun ht 0
  have q1 : win0_4.index t (1 : Fin 2) = (i 1).val / 8192 := congrFun ht 1
  refine ⟨t, flush0_4 t, ?_⟩
  rw [mem_blk]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 8192 ≤ (i 1).val ∧ (i 1).val < win0_4.index t (1 : Fin 2) * 8192 + 8192; omega

/-! ## The array after the run, and the run -/

/-- The output array after the run is `result` of the four arguments as launched. -/
theorem final (c : Dev nD) :
    (dats m 0 c).arrAt 4 cfg0.N
      = result (m ((c : Thread nD τ).loc main_arg0)) (m ((c : Thread nD τ).loc main_arg1))
          (m ((c : Thread nD τ).loc main_arg2)) (m ((c : Thread nD τ).loc main_arg3)) := by
  rw [(dats m 0 c).arrAt_eq_of_cover 4
    (resultCols (V m c main_arg0) (V m c main_arg1) (V m c main_v0) (V m c main_v1))
    (fun t _ => flushed_eq m c t) cover]
  rw [V_main_arg0, V_main_arg1, V_logvar, V_logweight]
  exact resultCols_reshape _ _ _ _

/-- The kernel's run: the output ends at `result` of the arguments, the arguments unchanged. -/
theorem run : θ_run defs (onTc (τ := τ) (main (F := Ideal))) ⟨m, fun _ => 0, ρ⟩ fun r => ∀ c : Dev nD,
      r.2.mem ((c : Thread nD τ).loc main_v2)
          = result (m ((c : Thread nD τ).loc main_arg0)) (m ((c : Thread nD τ).loc main_arg1))
              (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.Gmm

end
-- ==== Proof.RefValue.lean ====
/-
  The reference's result is `result` of its four arguments, entry by entry.

  The reference computes the two squared norms as host sums over axis 1 (each from an initial value that is the zero
  word, so `0 + sum`), the inner products as one `dot_general` contracting the coordinate axis of both operands, lays
  the column of mean norms and the row of point norms over the 256 x 262144 result by broadcasts, and finishes with the
  same pointwise operations as `logDensity`, in the same order and with the same three constant words. Each stage is
  read at an index by the generated read lemmas; what is left is that each composed index map picks row `i 0` of the
  means (or entry `i 0` of a vector) and row `i 1` of the points, and that `0 + s = s`.
-/
import proofs.«127888_j55448027791416_1_alg».proof.Proof.Gen.ReferenceIdeal.Read
import proofs.«127888_j55448027791416_1_alg».proof.Proof.Spec
import Idealize.ShloMosaic.PureOps.Ideal.Laws

noncomputable section

namespace Cert.Gmm

open Idealize.ShloMosaic Idealize.ShloMosaic.ValueIdx Cert.ReferenceIdeal Cert.ReferenceIdeal.Gen Cert.ReferenceIdeal.Read

variable (x0 : FVec Ideal S262144x64 .f32) (x1 : FVec Ideal S256x64 .f32) (x2 x3 : FVec Ideal S256 .f32)

/-- The column of the means' squared norms laid over the result: at `i`, the squared norm of mean `i 0`. -/
theorem ref_sqMean (i : S256x262144.Idx) :
    val_main_v7 (F := Ideal) x1 i = ∑ d : Fin 64, x1 (ix2 (i 0 : Fin 256) d) * x1 (ix2 (i 0 : Fin 256) d) := by
  rw [val_main_v7_apply, val_main_v5_apply, val_main_v3_apply, val_main_cst_0_apply, Ideal.ofBits_def,
    Ideal.ofBits_zero_f32, zero_add]
  refine Finset.sum_congr rfl fun d _ => ?_
  have e : idx_main_v3 (idx_main_v5 (idx_main_v7 i)) d = ix2 (i 0 : Fin 256) d :=
    funext fun a => Fin.ext (by match a with | ⟨0, _⟩ => rfl | ⟨1, _⟩ => rfl)
  rw [val_main_v2_apply, e]
  rfl

/-- The row of the points' squared norms laid over the result: at `i`, the squared norm of point `i 1`. -/
theorem ref_sqPoint (i : S256x262144.Idx) :
    val_main_v8 (F := Ideal) x0 i = ∑ d : Fin 64, x0 (ix2 (i 1 : Fin 262144) d) * x0 (ix2 (i 1 : Fin 262144) d) := by
  rw [val_main_v8_apply, val_main_v6_apply, val_main_v1_apply, val_main_cst_apply, Ideal.ofBits_def,
    Ideal.ofBits_zero_f32, zero_add]
  refine Finset.sum_congr rfl fun d _ => ?_
  have e : idx_main_v1 (idx_main_v6 (idx_main_v8 i)) d = ix2 (i 1 : Fin 262144) d :=
    funext fun a => Fin.ext (by match a with | ⟨0, _⟩ => rfl | ⟨1, _⟩ => rfl)
  rw [val_main_v0_apply, e]
  rfl

/-- The `dot_general` at `i`: the inner product of mean `i 0` with point `i 1`. -/
theorem ref_inner (i : S256x262144.Idx) :
    val_main_v4 (F := Ideal) x0 x1 i = ∑ d : Fin 64, x1 (ix2 (i 0 : Fin 256) d) * x0 (ix2 (i 1 : Fin 262144) d) := by
  rw [val_main_v4_apply]
  refine Finset.sum_congr rfl fun d _ => ?_
  have el : lidx_main_v4 i d = ix2 (i 0 : Fin 256) d :=
    funext fun a => Fin.ext (by match a with | ⟨0, _⟩ => rfl | ⟨1, _⟩ => rfl)
  have er : ridx_main_v4 i d = ix2 (i 1 : Fin 262144) d :=
    funext fun a => Fin.ext (by match a with | ⟨0, _⟩ => rfl | ⟨1, _⟩ => rfl)
  rw [el, er]
  rfl

/-- The exponentiated log-variances laid over the result: at `i`, `exp` of log-variance `i 0`. -/
theorem ref_var (i : S256x262144.Idx) :
    val_main_v20 (F := Ideal) x2 i = Ideal.exp (x2 (ix1 (i 0 : Fin 256))) := by
  rw [val_main_v20_apply, val_main_v14_apply, val_main_v13_apply, Ideal.hostUnary_exp_def]
  have e : idx_main_v14 (idx_main_v20 i) = ix1 (i 0 : Fin 256) :=
    funext fun a => Fin.ext (by match a with | ⟨0, _⟩ => rfl)
  rw [e]
  rfl

/-- The per-component offset laid over the result: at `i`, log-weight `i 0` minus 32 times log-variance `i 0`. -/
theorem ref_offset (i : S256x262144.Idx) :
    val_main_v24 (F := Ideal) x2 x3 i
      = x3 (ix1 (i 0 : Fin 256)) - Ideal.ofBits .f32 0x42000000#32 * x2 (ix1 (i 0 : Fin 256)) := by
  rw [val_main_v24_apply, val_main_v19_apply, val_main_v15_apply, val_main_v18_apply, val_main_v17_apply,
    val_main_cst_2_apply, val_main_v16_apply]
  have e15 : idx_main_v15 (idx_main_v24 i) = ix1 (i 0 : Fin 256) :=
    funext fun a => Fin.ext (by match a with | ⟨0, _⟩ => rfl)
  have e16 : idx_main_v16 (idx_main_v24 i) = ix1 (i 0 : Fin 256) :=
    funext fun a => Fin.ext (by match a with | ⟨0, _⟩ => rfl)
  rw [e15, e16]
  rfl

/-- The reference's last stage is `result` of the four arguments. -/
theorem reference_eq : val_main_v25 (F := Ideal) x0 x1 x2 x3 = result x0 x1 x2 x3 := by
  funext i
  rw [val_main_v25_apply, val_main_v23_apply, val_main_v22_apply, val_main_cst_3_apply, val_main_v21_apply,
    val_main_v12_apply, val_main_v9_apply, val_main_v11_apply, val_main_v10_apply, val_main_cst_1_apply,
    ref_sqMean, ref_sqPoint, ref_inner, ref_var, ref_offset]
  rfl

end Cert.Gmm

end
-- ==== Proof.lean ====
/-
  The kernel computes, for 262144 points and 256 components in 64 dimensions, the log-weight of each point under each
  component of a mixture of isotropic Gaussians,

      out[k, n] = (w[k] - 32 * lv[k]) - 1/2 * ((|mu[k]|^2 + |X[n]|^2 - 2 * <mu[k], X[n]>) / exp lv[k]),

  one 256 x 8192 column block of the output per grid point; the reference computes the same expression on whole arrays.
  Read on the extended reals, both programs apply the same operations in the same order with the same three constant
  words, so no algebraic law beyond `0 + s = s` (the host sum's zero initial value, the matrix product's zero
  accumulator) is needed, and the inputs' finiteness is never used:

  * Proof/Spec.lean states the entry's value (`logDensity`) and the whole result (`result`);
  * Proof/Payload.lean reads the kernel body's stored block at an entry as `logDensity` of the loaded rows;
  * Proof/KernelValue.lean shows the 32 blocks are the column blocks of `result` and tile the output;
  * Proof/RefValue.lean reads the reference's last stage as `result`.

  The three frames are the generated ones (the reference's is its run with the result dropped); the idealization
  rewrote nothing, so `preserves` is trivial.
-/
import proofs.«127888_j55448027791416_1_alg».proof.Defs
import proofs.«127888_j55448027791416_1_alg».proof.Proof.Gen.Kernel
import proofs.«127888_j55448027791416_1_alg».proof.Proof.Gen.Kernel.Skeleton
import proofs.«127888_j55448027791416_1_alg».proof.Proof.Gen.Kernel.Launch
import proofs.«127888_j55448027791416_1_alg».proof.Proof.Gen.Kernel.Points
import proofs.«127888_j55448027791416_1_alg».proof.Proof.Gen.Kernel.Frame
import proofs.«127888_j55448027791416_1_alg».proof.Proof.Gen.KernelIdeal
import proofs.«127888_j55448027791416_1_alg».proof.Proof.Gen.KernelIdeal.Skeleton
import proofs.«127888_j55448027791416_1_alg».proof.Proof.Gen.KernelIdeal.Launch
import proofs.«127888_j55448027791416_1_alg».proof.Proof.Gen.KernelIdeal.Points
import proofs.«127888_j55448027791416_1_alg».proof.Proof.Gen.KernelIdeal.Frame
import proofs.«127888_j55448027791416_1_alg».proof.Proof.Gen.ReferenceIdeal
import proofs.«127888_j55448027791416_1_alg».proof.Proof.Gen.KernelIdeal.Value
import proofs.«127888_j55448027791416_1_alg».proof.Proof.Gen.ReferenceIdeal.Run
import proofs.«127888_j55448027791416_1_alg».proof.Proof.Gen.ReferenceIdeal.Read
import proofs.«127888_j55448027791416_1_alg».proof.Proof.Gen.Pre_finite_inputs
import proofs.«127888_j55448027791416_1_alg».proof.Proof.KernelValue
import proofs.«127888_j55448027791416_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments, the kernel's output array and the reference's result both end at
    `result` of those arguments. -/
theorem algebraic : Cert.algebraic_KernelIdeal_ReferenceIdeal := by
  intro m ρ m' ρ' _ hagree
  refine ⟨_, Cert.Gmm.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v25_eq (F := Ideal) _ _ _ _).trans (Cert.Gmm.reference_eq _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
